-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 78
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x800000, .i32⟩
  | .hbm, ⟨4, _⟩ => ⟨S100000, .i32⟩
  | .hbm, ⟨5, _⟩ => ⟨S1x800000, .i32⟩
  | .hbm, ⟨6, _⟩ => ⟨S800000, .i32⟩
  | .hbm, ⟨7, _⟩ => ⟨S900000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S_, .f32⟩
  | .hbm, ⟨12, _⟩ => ⟨S900000, .f32⟩
  | .hbm, ⟨13, _⟩ => ⟨S_, .f32⟩
  | .hbm, ⟨14, _⟩ => ⟨S100000, .f32⟩
  | .hbm, ⟨15, _⟩ => ⟨S900000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S900000, .i32⟩
  | .hbm, ⟨26, _⟩ => ⟨S900000, .i1⟩
  | .hbm, ⟨27, _⟩ => ⟨S_, .i32⟩
  | .hbm, ⟨28, _⟩ => ⟨S900000, .i32⟩
  | .hbm, ⟨29, _⟩ => ⟨S900000, .i32⟩
  | .hbm, ⟨30, _⟩ => ⟨S900000, .i32⟩
  | .hbm, ⟨31, _⟩ => ⟨S900000x1, .i32⟩
  | .hbm, ⟨32, _⟩ => ⟨S900000, .f32⟩
  | .hbm, ⟨33, _⟩ => ⟨S_, .i32⟩
  | .hbm, ⟨34, _⟩ => ⟨S900000, .i32⟩
  | .hbm, ⟨35, _⟩ => ⟨S900000, .i1⟩
  | .hbm, ⟨36, _⟩ => ⟨S_, .i32⟩
  | .hbm, ⟨37, _⟩ => ⟨S900000, .i32⟩
  | .hbm, ⟨38, _⟩ => ⟨S900000, .i32⟩
  | .hbm, ⟨39, _⟩ => ⟨S900000, .i32⟩
  | .hbm, ⟨40, _⟩ => ⟨S900000x1, .i32⟩
  | .hbm, ⟨41, _⟩ => ⟨S900000, .f32⟩
  | .hbm, ⟨42, _⟩ => ⟨S900000, .f32⟩
  | .hbm, ⟨43, _⟩ => ⟨S900000x1, .f32⟩
  | .hbm, ⟨44, _⟩ => ⟨S_, .i32⟩
  | .hbm, ⟨45, _⟩ => ⟨S900000, .i32⟩
  | .hbm, ⟨46, _⟩ => ⟨S900000, .i1⟩
  | .hbm, ⟨47, _⟩ => ⟨S_, .i32⟩
  | .hbm, ⟨48, _⟩ => ⟨S900000, .i32⟩
  | .hbm, ⟨49, _⟩ => ⟨S900000, .i32⟩
  | .hbm, ⟨50, _⟩ => ⟨S900000, .i32⟩
  | .hbm, ⟨51, _⟩ => ⟨S900000x1, .i32⟩
  | .hbm, ⟨52, _⟩ => ⟨S900000x128, .f32⟩
  | .hbm, ⟨53, _⟩ => ⟨S900000x128, .f32⟩
  | .hbm, ⟨54, _⟩ => ⟨S900000x128, .f32⟩
  | .hbm, ⟨55, _⟩ => ⟨S_, .f32⟩
  | .hbm, ⟨56, _⟩ => ⟨S100000x128, .f32⟩
  | .hbm, ⟨57, _⟩ => ⟨S900000x1, .i32⟩
  | .hbm, ⟨58, _⟩ => ⟨S100000x128, .f32⟩
  | .hbm, ⟨59, _⟩ => ⟨S900000x1, .f32⟩
  | .hbm, ⟨60, _⟩ => ⟨S_, .i32⟩
  | .hbm, ⟨61, _⟩ => ⟨S900000, .i32⟩
  | .hbm, ⟨62, _⟩ => ⟨S900000, .i1⟩
  | .hbm, ⟨63, _⟩ => ⟨S_, .i32⟩
  | .hbm, ⟨64, _⟩ => ⟨S900000, .i32⟩
  | .hbm, ⟨65, _⟩ => ⟨S900000, .i32⟩
  | .hbm, ⟨66, _⟩ => ⟨S900000, .i32⟩
  | .hbm, ⟨67, _⟩ => ⟨S900000x1, .i32⟩
  | .hbm, ⟨68, _⟩ => ⟨S900000x128, .f32⟩
  | .hbm, ⟨69, _⟩ => ⟨S900000x128, .f32⟩
  | .hbm, ⟨70, _⟩ => ⟨S900000x128, .f32⟩
  | .hbm, ⟨71, _⟩ => ⟨S_, .f32⟩
  | .hbm, ⟨72, _⟩ => ⟨S100000x128, .f32⟩
  | .hbm, ⟨73, _⟩ => ⟨S900000x1, .i32⟩
  | .hbm, ⟨74, _⟩ => ⟨S100000x128, .f32⟩
  | .hbm, ⟨75, _⟩ => ⟨S128x128, .f32⟩
  | .hbm, ⟨76, _⟩ => ⟨S1x128, .f32⟩
  | .hbm, ⟨77, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v56) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x1 : Shape := ⟨2, ![100000, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x800000, .i32⟩
  | .hbm, ⟨4, _⟩ => ⟨S100000, .i32⟩
  | .hbm, ⟨5, _⟩ => ⟨S1x800000, .i32⟩
  | .hbm, ⟨6, _⟩ => ⟨S800000, .i32⟩
  | .hbm, ⟨7, _⟩ => ⟨S900000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S_, .f32⟩
  | .hbm, ⟨12, _⟩ => ⟨S900000, .f32⟩
  | .hbm, ⟨13, _⟩ => ⟨S_, .f32⟩
  | .hbm, ⟨14, _⟩ => ⟨S100000, .f32⟩
  | .hbm, ⟨15, _⟩ => ⟨S900000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S900000, .i32⟩
  | .hbm, ⟨26, _⟩ => ⟨S900000, .i1⟩
  | .hbm, ⟨27, _⟩ => ⟨S_, .i32⟩
  | .hbm, ⟨28, _⟩ => ⟨S900000, .i32⟩
  | .hbm, ⟨29, _⟩ => ⟨S900000, .i32⟩
  | .hbm, ⟨30, _⟩ => ⟨S900000, .i32⟩
  | .hbm, ⟨31, _⟩ => ⟨S900000x1, .i32⟩
  | .hbm, ⟨32, _⟩ => ⟨S900000, .f32⟩
  | .hbm, ⟨33, _⟩ => ⟨S_, .i32⟩
  | .hbm, ⟨34, _⟩ => ⟨S900000, .i32⟩
  | .hbm, ⟨35, _⟩ => ⟨S900000, .i1⟩
  | .hbm, ⟨36, _⟩ => ⟨S_, .i32⟩
  | .hbm, ⟨37, _⟩ => ⟨S900000, .i32⟩
  | .hbm, ⟨38, _⟩ => ⟨S900000, .i32⟩
  | .hbm, ⟨39, _⟩ => ⟨S900000, .i32⟩
  | .hbm, ⟨40, _⟩ => ⟨S900000x1, .i32⟩
  | .hbm, ⟨41, _⟩ => ⟨S900000, .f32⟩
  | .hbm, ⟨42, _⟩ => ⟨S900000, .f32⟩
  | .hbm, ⟨43, _⟩ => ⟨S900000x1, .f32⟩
  | .hbm, ⟨44, _⟩ => ⟨S_, .i32⟩
  | .hbm, ⟨45, _⟩ => ⟨S900000, .i32⟩
  | .hbm, ⟨46, _⟩ => ⟨S900000, .i1⟩
  | .hbm, ⟨47, _⟩ => ⟨S_, .i32⟩
  | .hbm, ⟨48, _⟩ => ⟨S900000, .i32⟩
  | .hbm, ⟨49, _⟩ => ⟨S900000, .i32⟩
  | .hbm, ⟨50, _⟩ => ⟨S900000, .i32⟩
  | .hbm, ⟨51, _⟩ => ⟨S900000x1, .i32⟩
  | .hbm, ⟨52, _⟩ => ⟨S900000x128, .f32⟩
  | .hbm, ⟨53, _⟩ => ⟨S900000x128, .f32⟩
  | .hbm, ⟨54, _⟩ => ⟨S900000x128, .f32⟩
  | .hbm, ⟨55, _⟩ => ⟨S_, .f32⟩
  | .hbm, ⟨56, _⟩ => ⟨S100000x128, .f32⟩
  | .hbm, ⟨57, _⟩ => ⟨S900000x1, .i32⟩
  | .hbm, ⟨58, _⟩ => ⟨S100000x128, .f32⟩
  | .hbm, ⟨59, _⟩ => ⟨S900000x1, .f32⟩
  | .hbm, ⟨60, _⟩ => ⟨S_, .i32⟩
  | .hbm, ⟨61, _⟩ => ⟨S900000, .i32⟩
  | .hbm, ⟨62, _⟩ => ⟨S900000, .i1⟩
  | .hbm, ⟨63, _⟩ => ⟨S_, .i32⟩
  | .hbm, ⟨64, _⟩ => ⟨S900000, .i32⟩
  | .hbm, ⟨65, _⟩ => ⟨S900000, .i32⟩
  | .hbm, ⟨66, _⟩ => ⟨S900000, .i32⟩
  | .hbm, ⟨67, _⟩ => ⟨S900000x1, .i32⟩
  | .hbm, ⟨68, _⟩ => ⟨S900000x128, .f32⟩
  | .hbm, ⟨69, _⟩ => ⟨S900000x128, .f32⟩
  | .hbm, ⟨70, _⟩ => ⟨S900000x128, .f32⟩
  | .hbm, ⟨71, _⟩ => ⟨S_, .f32⟩
  | .hbm, ⟨72, _⟩ => ⟨S100000x128, .f32⟩
  | .hbm, ⟨73, _⟩ => ⟨S900000x1, .i32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000, .f32⟩
  | .hbm, ⟨91, _⟩ => ⟨S100000x1, .f32⟩
  | .hbm, ⟨92, _⟩ => ⟨S100000x1, .f32⟩
  | .hbm, ⟨93, _⟩ => ⟨S100000x128, .f32⟩
  | .hbm, ⟨94, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call1_cst : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_cst_1 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_v62 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x128_S100000x128_1_0_0_1_n_n_wf : DotDims.WF S100000x128 S128x128 S100000x128 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowLogSoftmax.lean ====
/-
  The function both programs compute, on the extended reals. A row `r` of 128 logits goes to
  `r j − M − log (∑ₖ exp (r k − M))` with `M` the row's largest entry (folded from −∞): log-softmax in its shifted form.
  The logits of node `i` are `∑ₖ h i k · W j k + b j`: row `i` of the propagated features against row `j` of the weight
  matrix, plus the bias.
-/
import Idealize.ShloMosaic.PureOps.Ideal
import Idealize.ShloMosaic.PureOps.Ideal.Laws
import Idealize.ShloMosaic.Lib.ValueIdx

noncomputable section

namespace Cert.RowLogSoftmax

open Idealize.ShloMosaic Idealize.ShloMosaic.ValueIdx

/-- The largest of a row's 128 entries, folded from −∞. -/
def rowMax (r : Fin 128 → EReal) : EReal := (Finset.univ : Finset (Fin 128)).fold max ⊥ r

/-- Log-softmax of a row in its shifted form: the row less its maximum, less the log of the sum of the exponentials of
    that. -/
def logSoftmax (r : Fin 128 → EReal) (j : Fin 128) : EReal :=
  (r j - rowMax r) - Ideal.log (∑ k : Fin 128, Ideal.exp (r k - rowMax r))

/-- The logits of node `i`: row `i` of `h` against each row of `W`, plus the bias. -/
def logits (h : (⟨2, ![100000, 128]⟩ : Shape).Idx → EReal) (W : (⟨2, ![128, 128]⟩ : Shape).Idx → EReal)
    (b : (⟨1, ![128]⟩ : Shape).Idx → EReal) (i : Fin 100000) (j : Fin 128) : EReal :=
  (∑ k : Fin 128, h (ix2 i k) * W (ix2 j k)) + b (ix1 j)

/-- The whole result: entry `(i, j)` is the log-softmax of node `i`'s logits at class `j`. -/
def result (h : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun y => logSoftmax (logits h W b (y 0)) (y 1)

theorem result_ix2 (h : (⟨2, ![100000, 128]⟩ : Shape).Idx → EReal) (W : (⟨2, ![128, 128]⟩ : Shape).Idx → EReal)
    (b : (⟨1, ![128]⟩ : Shape).Idx → EReal) (i : Fin 100000) (j : Fin 128) :
    result h W b (ix2 i j) = logSoftmax (logits h W b i) j := rfl

/-- The same result over the weights as the launch stages them — transposed, `wt (k, j)` for `W (j, k)` — and the bias
    as a one-row matrix. -/
def resultT (h : (⟨2, ![100000, 128]⟩ : Shape).Idx → EReal) (wt : (⟨2, ![128, 128]⟩ : Shape).Idx → EReal)
    (b2 : (⟨2, ![1, 128]⟩ : Shape).Idx → EReal) : (⟨2, ![100000, 128]⟩ : Shape).Idx → EReal :=
  fun y => logSoftmax (fun j => (∑ k : Fin 128, h (ix2 (y 0) k) * wt (ix2 k j)) + b2 (ix2 (0 : Fin 1) j)) (y 1)

/-- With the transposed weights and the bias row read back, it is the result. -/
theorem resultT_eq (h : (⟨2, ![100000, 128]⟩ : Shape).Idx → EReal) (W wt : (⟨2, ![128, 128]⟩ : Shape).Idx → EReal)
    (b : (⟨1, ![128]⟩ : Shape).Idx → EReal) (b2 : (⟨2, ![1, 128]⟩ : Shape).Idx → EReal)
    (hwt : ∀ k j : Fin 128, wt (ix2 k j) = W (ix2 j k)) (hb : ∀ j : Fin 128, b2 (ix2 (0 : Fin 1) j) = b (ix1 j)) :
    resultT h wt b2 = result h W b := by
  funext y
  unfold resultT result logits
  refine congrArg (fun r => logSoftmax r (y 1)) (funext fun j => ?_)
  rw [hb j]
  exact congrArg (· + b (ix1 j)) (Finset.sum_congr rfl fun k _ => by rw [hwt k j])

/-- The pattern of −∞ denotes the bottom of the extended reals. -/
theorem ofBits_neg_inf : Ideal.ofBits .f32 0xFF800000#32 = ⊥ := by simp [Ideal.ofBits, Ideal.ieee]

end Cert.RowLogSoftmax

end
-- ==== Proof.LibColumn.lean ====
/-
  A column kept beside a matrix (what `keepdims=True` leaves): a vector `[a]` cast to the column `[a, 1]`, and a column
  `[a, 1]` broadcast over the `b` lanes of `[a, b]`, each read at an index given by its coordinates; and the source index a
  reduction over the lanes of an `[a, b]` array folds over, by its coordinates.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the row `p` of an `[a, b]` array, the source index a reduction along the lanes visits at lane `k` is `(p, k)`. -/
theorem lift_lanes_ix1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Idealize.ShloMosaic.ValueIdx
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KernelBlock.lean ====
/-
  One grid point of the kernel, at the ideal values: the body's stored value, at entry (p, q) of its [5000, 128] block, is
  the log-softmax at class q of the logits of the block's node p — the block's row p against the columns of the
  transposed weights, plus the bias row. The body is read in three stretches: the logits (a product into a zero
  accumulator plus a broadcast row), the column of row maxima, and the column of log-sums of exponentials.
-/
import proofs.«139447_j47330539602646_1_alg».proof.Proof.Gen.KernelIdeal.Skeleton
import proofs.«139447_j47330539602646_1_alg».proof.Proof.RowLogSoftmax
import proofs.«139447_j47330539602646_1_alg».proof.Proof.LibColumn
import proofs.«139447_j47330539602646_1_alg».proof.Proof.LibDotRowsCols
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.RowLogSoftmax

/-- The body's product contracts the block's lanes with the transposed weights' rows. -/
theorem dot_rowsCols : Cert.Lib.DotRowsCols.RowsCols dot_S5000x128_S128x128_S5000x128_1_0_0_1_n_n :=
  ⟨rfl, rfl, rfl, rfl, rfl, rfl⟩

/-- The block's logits as the body computes them. -/
def blockLogits (x0 : Vec Ideal S5000x128 .f32) (x1 : Vec Ideal S128x128 .f32) (x2 : Vec Ideal S1x128 .f32) :
    FVec Ideal S5000x128 .f32 :=
  addf (matmul dot_S5000x128_S128x128_S5000x128_1_0_0_1_n_n none
      (truncf .bf16 (shapeCast S5000x128 x0 shapeCasts_S5000x128_S5000x128) bitsLt_bf16_f32)
      (truncf .bf16 (shapeCast S128x128 x1 shapeCasts_S128x128_S128x128) bitsLt_bf16_f32)
      (constant S5000x128 .f32 0x00000000#32))
    (broadcastTo S5000x128 (shapeCast S1x128 x2 shapeCasts_S1x128_S1x128) broadcasts_S1x128_S5000x128)

/-- Entry (p, j) of the logits: row p of the block against column j of the second operand, plus the row's entry j. -/
theorem blockLogits_apply (x0 : Vec Ideal S5000x128 .f32) (x1 : Vec Ideal S128x128 .f32) (x2 : Vec Ideal S1x128 .f32)
    (p : Fin 5000) (j : Fin 128) :
    blockLogits x0 x1 x2 (ix2 p j) = (∑ k : Fin 128, x0 (ix2 p k) * x1 (ix2 k j)) + x2 (ix2 (0 : Fin 1) j) := by
  unfold blockLogits
  refine (addf_apply _ _ _).trans ?_
  refine congrArg₂ (· + ·) ?_ ?_
  · refine (dot_rowsCols.matmul_zero_apply none _ _ (ix2 p j)).trans ?_
    refine Finset.sum_congr rfl fun k _ => ?_
    rw [shapeCast_self, shapeCast_self]
    rfl
  · refine (broadcastTo_1b_ab_apply _ _ p j).trans ?_
    rw [shapeCast_self]

/-- The row maxima, kept as a column and broadcast back over the lanes. -/
def maxColumn (z : FVec Ideal S5000x128 .f32) : FVec Ideal S5000x128 .f32 :=
  broadcastTo S5000x128
    (shapeCast S5000x1 (multiReduction .maximumf [1] S5000 z 0xFF800000#32 reduces_S5000x128_S5000 (.inl rfl) rfl)
      shapeCasts_S5000_S5000x1)
    broadcasts_S5000x1_S5000x128

theorem maxColumn_apply (z : FVec Ideal S5000x128 .f32) (p : Fin 5000) (q : Fin 128) :
    maxColumn z (ix2 p q) = rowMax fun j => z (ix2 p j) := by
  unfold maxColumn
  refine (broadcastTo_a1_ab_apply _ _ p q).trans ?_
  refine (shapeCast_a_a1_apply _ _ p 0).trans ?_
  refine (Ideal.multiReduction_maximumf_single z 0xFF800000#32 reduces_S5000x128_S5000 (.inl rfl) rfl (ix1 p)).trans ?_
  unfold rowMax
  rw [Ideal.ofBits_def, ofBits_neg_inf]
  exact Finset.fold_congr fun k _ => congrArg z (lift_lanes_ix1 _ p k)

/-- The log of each row's sum of exponentials, kept as a column and broadcast back over the lanes. -/
def logSumColumn (s : FVec Ideal S5000x128 .f32) : FVec Ideal S5000x128 .f32 :=
  broadcastTo S5000x128
    (log (shapeCast S5000x1 (multiReduction .add [1] S5000 (exp s) 0x00000000#32 reduces_S5000x128_S5000 (.inl rfl) rfl)
      shapeCasts_S5000_S5000x1))
    broadcasts_S5000x1_S5000x128

theorem logSumColumn_apply (s : FVec Ideal S5000x128 .f32) (p : Fin 5000) (q : Fin 128) :
    logSumColumn s (ix2 p q) = Ideal.log (∑ k : Fin 128, Ideal.exp (s (ix2 p k))) := by
  unfold logSumColumn
  refine (broadcastTo_a1_ab_apply _ _ p q).trans ?_
  show Ideal.log _ = _
  refine congrArg Ideal.log ?_
  refine (shapeCast_a_a1_apply _ _ p 0).trans ?_
  refine (Ideal.multiReduction_add_single (exp s) 0x00000000#32 reduces_S5000x128_S5000 (.inl rfl) rfl (ix1 p)).trans ?_
  exact Finset.sum_congr rfl fun k _ => congrArg (fun y => Ideal.exp (s y)) (lift_lanes_ix1 _ p k)

/-- The body's stored value is the three stretches composed. -/
theorem pay_eq (x0 : Vec Ideal S5000x128 .f32) (x1 : Vec Ideal S128x128 .f32) (x2 : Vec Ideal S1x128 .f32) :
    k0_pay1 (F := Ideal) x0 x1 x2
      = subf (subf (blockLogits x0 x1 x2) (maxColumn (blockLogits x0 x1 x2)))
          (logSumColumn (subf (blockLogits x0 x1 x2) (maxColumn (blockLogits x0 x1 x2)))) := rfl

/-- Entry (p, q) of the stored block: log-softmax at class q of the logits of the block's node p. -/
theorem pay_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = logSoftmax (fun j => (∑ k : Fin 128, x0 (ix2 p k) * x1 (ix2 k j)) + x2 (ix2 (0 : Fin 1) j)) q := by
  rw [pay_eq]
  unfold logSoftmax
  simp only [subf_apply, maxColumn_apply, logSumColumn_apply, blockLogits_apply]

end Cert.KernelIdeal.Block

end
-- ==== Proof.KernelArray.lean ====
/-
  The kernel's result array after its run, at the ideal values. Grid point t stages rows 5000·t … 5000·t + 4999 of the
  propagated features, the whole transposed weight matrix and the bias row, and writes back the same rows of the result;
  the twenty blocks tile the [100000, 128] array. So the array ends holding, at (i, j), the log-softmax at class j of
  row i's logits — one function of the three arrays as the launch finds them.
-/
import proofs.«139447_j47330539602646_1_alg».proof.Proof.Gen.KernelIdeal.Value
import proofs.«139447_j47330539602646_1_alg».proof.Proof.KernelBlock
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.RowLogSoftmax Cert.KernelIdeal.Block
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three arrays the launch stages, as it finds them. -/
abbrev feats (c : Dev nD) : FVec Ideal S100000x128 .f32 := V m c (Pipeline.arrRef spec0 (0 : Fin cfg0.W))
abbrev wts (c : Dev nD) : FVec Ideal S128x128 .f32 := V m c (Pipeline.arrRef spec0 (1 : Fin cfg0.W))
abbrev bias (c : Dev nD) : FVec Ideal S1x128 .f32 := V m c (Pipeline.arrRef spec0 (2 : Fin cfg0.W))

/-- The printed index maps over the twenty grid points: the features' and the result's block index is the point on the
    row axis, everything else stays at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_rows (t : Fin cfg0.N) (p : Fin 5000) : 5000 * t.val + p.val < 100000 := by
  have h1 : t.val < 20 := by
    have h := t.isLt
    have hN : cfg0.N = 20 := N_0
    omega
  have h2 := p.isLt
  omega

/-- Entry (p, k) of the features' block at point t is entry (5000·t + p, k) of the array. -/
theorem feats_emb (t : Fin cfg0.N) (p : Fin 5000) (k : Fin 128) :
    ((cfg0.win 0).blk t).view.emb (ix2 p k) = (ix2 ⟨5000 * t.val + p.val, lt_rows t p⟩ k : S100000x128.Idx) := by
  obtain ⟨e0, e1, -⟩ := idx_facts t
  refine funext fun a => Fin.ext ?_
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The weights' block at every point is the whole matrix. -/
theorem wts_emb (t : Fin cfg0.N) (k j : Fin 128) :
    ((cfg0.win 1).blk t).view.emb (ix2 k j) = (ix2 k j : S128x128.Idx) := by
  obtain ⟨-, -, e0, e1, -⟩ := idx_facts t
  refine funext fun a => Fin.ext ?_
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- The bias' block at every point is the whole row. -/
theorem bias_emb (t : Fin cfg0.N) (u : Fin 1) (j : Fin 128) :
    ((cfg0.win 2).blk t).view.emb (ix2 u j) = (ix2 u j : S1x128.Idx) := by
  obtain ⟨-, -, -, -, e0, e1, -⟩ := idx_facts t
  refine funext fun a => Fin.ext ?_
  match a with
  | ⟨0, _⟩ => show win0_2.index t (0 : Fin 2) * 1 + 1 * u.val = u.val; rw [e0]; omega
  | ⟨1, _⟩ => show win0_2.index t (1 : Fin 2) * 128 + 1 * j.val = j.val; rw [e1]; omega

/-- The features' block at point t is rows 5000·t … of the array. -/
theorem feats_blk (c : Dev nD) (t : Fin cfg0.N) (p : Fin 5000) (k : Fin 128) :
    (iblk m c 0 t : Vec Ideal S5000x128 .f32) (ix2 p k) = feats m c (ix2 ⟨5000 * t.val + p.val, lt_rows t p⟩ k) := by
  unfold iblk
  rw [View.read_apply, feats_emb t p k]
  exact cast_eq _ _

/-- The weights' block at every point is the whole transposed matrix. -/
theorem wts_blk (c : Dev nD) (t : Fin cfg0.N) (k j : Fin 128) :
    (iblk m c 1 t : Vec Ideal S128x128 .f32) (ix2 k j) = wts m c (ix2 k j) := by
  unfold iblk
  rw [View.read_apply, wts_emb t k j]
  exact cast_eq _ _

/-- The bias' block at every point is the whole row. -/
theorem bias_blk (c : Dev nD) (t : Fin cfg0.N) (u : Fin 1) (j : Fin 128) :
    (iblk m c 2 t : Vec Ideal S1x128 .f32) (ix2 u j) = bias m c (ix2 u j) := by
  unfold iblk
  rw [View.read_apply, bias_emb t u j]
  exact cast_eq _ _

/-- Entry (p, q) of the result's block at point t is entry (5000·t + p, q) of the array. -/
theorem out_emb (t : Fin cfg0.N) (p : Fin 5000) (q : Fin 128) :
    ((cfg0.win 3).blk t).view.emb (ix2 p q) = (ix2 ⟨5000 * t.val + p.val, lt_rows t p⟩ q : S100000x128.Idx) := by
  obtain ⟨-, -, -, -, -, -, e0, e1⟩ := idx_facts t
  refine funext fun a => Fin.ext ?_
  match a with
  | ⟨0, _⟩ => show win0_3.index t (0 : Fin 2) * 5000 + 1 * p.val = 5000 * t.val + p.val; rw [e0]; omega
  | ⟨1, _⟩ => show win0_3.index t (1 : Fin 2) * 128 + 1 * q.val = q.val; rw [e1]; omega

/-- What the result's window writes back of a block's contents X, at (p, q), is X there: the window is never cut. -/
theorem cut_apply {α : Type} (t : Fin cfg0.N) (X : S5000x128.Idx → α) (p : Fin 5000) (q : Fin 128) :
    (cfg0.win 3).cut (grid0.coords t) X (ix2 p q) = X (ix2 p q) :=
  congrArg X (funext fun a => Fin.ext (by match a with | ⟨0, _⟩ => rfl | ⟨1, _⟩ => rfl))

/-- An array read through the result's block at point t, at (p, q), is the array at (5000·t + p, q). -/
theorem read_blk_apply (t : Fin cfg0.N) (G : S100000x128.Idx → EReal) (p : Fin 5000) (q : Fin 128) :
    ((cfg0.win 3).blk t).view.read (Elt Ideal) G (ix2 p q) = G (ix2 ⟨5000 * t.val + p.val, lt_rows t p⟩ q) := by
  rw [View.read_apply, out_emb t p q]
  exact cast_eq _ _

theorem resultT_ix2 (h : FVec Ideal S100000x128 .f32) (wt : FVec Ideal S128x128 .f32) (b2 : FVec Ideal S1x128 .f32)
    (i : Fin 100000) (j : Fin 128) :
    resultT h wt b2 (ix2 i j)
      = logSoftmax (fun j' => (∑ k : Fin 128, h (ix2 i k) * wt (ix2 k j')) + b2 (ix2 (0 : Fin 1) j')) j := rfl

/-- WHAT POINT t WRITES BACK is block t of the one whole-array function. -/
theorem flushed_eq (c : Dev nD) (t : Fin cfg0.N) :
    (dats m 0 c).flushed 3 t
      = ((cfg0.win 3).blk t).view.read (Elt Ideal) (resultT (feats m c) (wts m c) (bias m c)) := by
  rw [Cert.KernelIdeal.Value.flushed3]
  unfold out0_3
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  refine (cut_apply t _ p q).trans (Eq.trans ?_ (read_blk_apply t _ p q).symm)
  refine (pay_apply (iblk m c 0 t) (iblk m c 1 t) (iblk m c 2 t) p q).trans ?_
  rw [resultT_ix2]
  refine congrArg (fun r => logSoftmax r q) (funext fun j => ?_)
  refine congrArg₂ (· + ·) (Finset.sum_congr rfl fun k _ => ?_) (bias_blk m c t 0 j)
  exact congrArg₂ (· * ·) (feats_blk m c t p k) (wts_blk m c t k j)

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v59).slice (win0_3.rect t)).set ↔ _
  rw [View.set_slice_whole, Rect.mem_set_unit]
  exact Iff.rfl

/-- Row r lies in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := idx_facts t
  refine ⟨t, flush0_3 t, ?_⟩
  rw [mem_blk]
  intro a
  have ht : t.val = (i 0).val / 5000 := rfl
  match a with
  | ⟨0, _⟩ => show win0_3.index t (0 : Fin 2) * 5000 ≤ (i 0).val ∧ (i 0).val < win0_3.index t (0 : Fin 2) * 5000 + 5000; rw [e0]; omega
  | ⟨1, _⟩ => show win0_3.index t (1 : Fin 2) * 128 ≤ (i 1).val ∧ (i 1).val < win0_3.index t (1 : Fin 2) * 128 + 128; rw [e1]; omega

/-- THE ARRAY after the run. -/
theorem final (c : Dev nD) : (dats m 0 c).arrAt 3 cfg0.N = resultT (feats m c) (wts m c) (bias m c) :=
  (dats m 0 c).arrAt_eq_of_cover 3 (resultT (feats m c) (wts m c) (bias m c)) (fun t _ => flushed_eq m c t) cover

end Cert.KernelIdeal.Whole

end
-- ==== Proof.KernelPrefix.lean ====
/-
  What the launch finds in the three arrays it stages. The host operations before the launch are, operation for
  operation, the reference's graph propagation, so the features' array holds the reference's propagated features as a
  function of the node features and the edge list; the weights' array is the transposed weight matrix and the bias'
  array the bias as one row.
-/
import proofs.«139447_j47330539602646_1_alg».proof.Proof.Gen.KernelIdeal.Frame
import proofs.«139447_j47330539602646_1_alg».proof.Proof.RefRead
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
/-- The features' array: the reference's propagated features of the launch's node features and edge list. -/
theorem feats_eq (c : Dev nD) :
    (V m c main_v56 : S100000x128.Idx → Elt F .f32)
      = Cert.ReferenceIdeal.ReadP.val_main_v56 (F := F) (m ((c : Thread nD τ).loc main_arg0)) (m ((c : Thread nD τ).loc main_arg3)) := by
  dsimp only [V]
  simp only [hostOps0, hostOps0_1, hostOps0_2, List.flatten_cons, List.flatten_nil, List.append_nil, List.cons_append, List.nil_append]
  after_results_simp <;> rfl

/-- The weights' array: the weight matrix transposed. -/
theorem wts_eq (c : Dev nD) :
    (V m c main_v57 : S128x128.Idx → Elt F .f32)
      = transpose S128x128 [1, 0] (m ((c : Thread nD τ).loc main_arg1)) transposes_S128x128_S128x128_1_0 := by
  dsimp only [V]
  simp only [hostOps0, hostOps0_1, hostOps0_2, List.flatten_cons, List.flatten_nil, List.append_nil, List.cons_append, List.nil_append]
  after_results_simp <;> rfl

/-- The bias' array: the bias as a one-row matrix. -/
theorem bias_eq (c : Dev nD) :
    (V m c main_v58 : S1x128.Idx → Elt F .f32)
      = shapeCast S1x128 (m ((c : Thread nD τ).loc main_arg2)) shapeCasts_S128_S1x128 := by
  dsimp only [V]
  simp only [hostOps0, hostOps0_1, hostOps0_2, List.flatten_cons, List.flatten_nil, List.append_nil, List.cons_append, List.nil_append]
  after_results_simp <;> rfl

end Cert.KernelIdeal.Prefix

end
-- ==== Proof.Bridge.lean ====
/-
  The kernel's run, read: its result array ends at the log-softmax of the logits of the propagated features, the same
  function of the launch's node features, weights, bias and edge list that the reference's last stage is. The three
  arrays the launch stages are what the host operations before it left: the reference's propagated features, the weight
  matrix transposed (so column j of the staged matrix is row j of W) and the bias as one row.
-/
import proofs.«139447_j47330539602646_1_alg».proof.Proof.KernelArray
import proofs.«139447_j47330539602646_1_alg».proof.Proof.KernelPrefix
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Cert.RowLogSoftmax Cert.KernelIdeal.Prefix

variable (m : (ℓ : Loc nD τ sig) → Buf (Elt Ideal) ℓ) (ρ : Dev nD → PrngReg)

/-- The contents the launch finds depend on the buffer only through which buffer it is. -/
theorem V_heq (c : Dev nD) {r r' : Ref sig .tc} (e : r = r') : HEq (V m c r) (V m c r') := by
  subst e; rfl

theorem feats_main (c : Dev nD) : feats m c = (V m c main_v56 : S100000x128.Idx → EReal) :=
  eq_of_heq (V_heq m c (r := Pipeline.arrRef spec0 (0 : Fin cfg0.W)) (r' := main_v56) rfl)
theorem wts_main (c : Dev nD) : wts m c = (V m c main_v57 : S128x128.Idx → EReal) :=
  eq_of_heq (V_heq m c (r := Pipeline.arrRef spec0 (1 : Fin cfg0.W)) (r' := main_v57) rfl)
theorem bias_main (c : Dev nD) : bias m c = (V m c main_v58 : S1x128.Idx → EReal) :=
  eq_of_heq (V_heq m c (r := Pipeline.arrRef spec0 (2 : Fin cfg0.W)) (r' := main_v58) rfl)

/-- THE ARRAY after the run, as a function of the launch's arguments. -/
theorem kernel_result (c : Dev nD) :
    (dats m 0 c).arrAt 3 cfg0.N
      = result (Cert.ReferenceIdeal.ReadP.val_main_v56 (F := Ideal) (m ((c : Thread nD τ).loc main_arg0)) (m ((c : Thread nD τ).loc main_arg3)))
          (m ((c : Thread nD τ).loc main_arg1)) (m ((c : Thread nD τ).loc main_arg2)) := by
  rw [final m c, feats_main, wts_main, bias_main, feats_eq, wts_eq, bias_eq]
  exact resultT_eq _ _ _ _ _ (fun k j => transpose_ix2_apply _ _ k j) (fun j => shapeCast_a_1a_apply _ _ 0 j)

/-- The run, read: the result array at that function, the arguments unchanged. -/
theorem kernel_run : θ_run defs (onTc (τ := τ) (main (F := Ideal))) ⟨m, fun _ => 0, ρ⟩ fun r => ∀ c : Dev nD,
      r.2.mem ((c : Thread nD τ).loc main_v59)
        = result (Cert.ReferenceIdeal.ReadP.val_main_v56 (F := Ideal) (m ((c : Thread nD τ).loc main_arg0)) (m ((c : Thread nD τ).loc main_arg3)))
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (kernel_result m c), (h c).2⟩)
    (Cert.KernelIdeal.Value.run_blocks m ρ)

end Cert.KernelIdeal.Whole

end
-- ==== Proof.LibStagedRun.lean ====
/-
  Reading a long straight line of host operations in stages.

  The contents a line of host operations leaves (`StableHlo.after`) can be read one buffer at a time by rewriting each
  operation's result. Read in one go, a value that several later operations use is copied once per use, and a line of
  a hundred operations over a graph's index arrays no longer fits. Three tools keep it small.

  * `after_take_drop`: the fold over a line is the fold over its first k operations followed by the fold over the
    rest. Cut the line at the mathematical boundaries, give the contents after each cut a name by a `def` (so that it
    stays folded), and read each stage's buffers as functions of the named contents of the stage before.
  * `results_rw`: after the one-pass reading (`after_results_simp`), which shares every value but does not look
    inside the pieces of a concatenation, this rewriting loop reads what is left there.
  * `cast_there_and_back`: the operations of a module-local function are written at their tensor types and moved to
    their buffers' types and back; after a reading these moves come in pairs around every intermediate value, and
    rewriting with this lemma removes each pair without ever computing a buffer's type.
-/
import Idealize.ShloMosaic.Lib.StableHlo.Run

namespace Cert.Lib.StagedRun

open Idealize.ShloMosaic Idealize.ShloMosaic.StableHlo

/-- Reads what is left of a fold after the one-pass reading: each operation's result at its own buffer, any other
    buffer as it was, also inside the pieces of a concatenation. -/
macro "results_rw" : tactic => `(tactic| (repeat (first
  | rw [nullary_result] | rw [unary_result] | rw [binary_result] | rw [ternary_result] | rw [quaternary_result]
  | rw [reshape_result]
  | (rw [nullary_result_ne]; rotate_left; decide)
  | (rw [unary_result_ne]; rotate_left; decide)
  | (rw [binary_result_ne]; rotate_left; decide)
  | (rw [ternary_result_ne]; rotate_left; decide)
  | (rw [quaternary_result_ne]; rotate_left; decide)
  | (rw [reshape_result_ne]; rotate_left; decide))))

variable {τ : Topo} {sig : RefSig} {Val : EltTy → Type}

/-- Folding a line of operations is folding its first k and then the rest. -/
theorem after_take_drop (L : List (HloOp τ sig Val)) (k : Nat) (V : Valuation τ sig Val) :
    after L V = after (L.drop k) (after (L.take k) V) := by
  induction k generalizing L V with
  | zero => rfl
  | succ k ih =>
    cases L with
    | nil => rfl
    | cons op l => exact ih l (op.result V)

/-- Moving a value along an equation of types and back gives the value. -/
theorem cast_there_and_back {α β : Sort _} (h : α = β) (h' : β = α) (v : α) : cast h' (cast h v) = v := by
  subst h; rfl

end Cert.Lib.StagedRun
-- ==== Proof.RefStages.lean ====
/-
  The reference's run, read in two stages. The first 71 host operations are the graph propagation and end with the
  propagated features; the last 20 transpose the weights, take the product, add the bias and apply log-softmax. The
  contents after the first stage are kept under one name, so that the second stage is read as a function of the
  propagated features, the weights and the bias without ever spelling the propagation out again.
-/
import proofs.«139447_j47330539602646_1_alg».proof.Proof.RefRead
import proofs.«139447_j47330539602646_1_alg».proof.Proof.LibStagedRun
import Idealize.ShloMosaic.Lib.StableHlo.Run

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.Lib.StagedRun

variable {F : FTy → Type} [FloatOps F]
variable (m : (ℓ : Loc nD τ sig) → Buf (Elt F) ℓ)

/-- A core's buffers after the propagation: the first 71 operations over the launch contents. -/
def afterProp (c : Dev nD) : Valuation τ sig (Elt F) := after (ops.take 71) (launchContents m c)

theorem afterProp_def (c : Dev nD) : after (ops.take 71) (launchContents m c) = afterProp m c := rfl

set_option maxRecDepth 16384 in
/-- The propagated features. -/
theorem afterProp_feats (c : Dev nD) :
    afterProp m c (Proc.devRef .tc main_v56)
      = val_main_v56 (F := F) (m ((c.tc : Thread nD τ).loc main_arg0)) (m ((c.tc : Thread nD τ).loc main_arg3)) := by
  unfold afterProp
  simp only [ops, List.take_succ_cons, List.take_zero]
  after_results_simp <;> rfl

/-- The propagation writes neither the weights nor the bias. -/
theorem afterProp_arg1 (c : Dev nD) :
    afterProp m c (Proc.devRef .tc main_arg1) = m ((c.tc : Thread nD τ).loc main_arg1) := by
  unfold afterProp
  simp only [ops, List.take_succ_cons, List.take_zero]
  after_results_simp <;> rfl

theorem afterProp_arg2 (c : Dev nD) :
    afterProp m c (Proc.devRef .tc main_arg2) = m ((c.tc : Thread nD τ).loc main_arg2) := by
  unfold afterProp
  simp only [ops, List.take_succ_cons, List.take_zero]
  after_results_simp <;> rfl

set_option maxRecDepth 16384 in
/-- The whole line's contents at the result: the last 20 operations read over the contents after the propagation. The
    operations of the outlined log-softmax move every intermediate value to its buffer's type and back; those pairs
    are removed without computing a buffer's type. -/
theorem after_result (c : Dev nD) :
    after ops (launchContents m c) (Proc.devRef .tc main_v62)
      = val_main_v62 (F := F) (m ((c.tc : Thread nD τ).loc main_arg0)) (m ((c.tc : Thread nD τ).loc main_arg1))
          (m ((c.tc : Thread nD τ).loc main_arg2)) (m ((c.tc : Thread nD τ).loc main_arg3)) := by
  rw [after_take_drop ops 71, afterProp_def]
  simp only [ops, List.drop_succ_cons, List.drop_zero]
  after_results_simp
  simp only [cast_there_and_back]
  rw [afterProp_feats, afterProp_arg1, afterProp_arg2]
  rfl

/-- No operation writes an argument. -/
theorem after_arg0 (c : Dev nD) :
    after ops (launchContents m c) (Proc.devRef .tc main_arg0) = m ((c.tc : Thread nD τ).loc main_arg0) := by
  after_results_simp <;> rfl
theorem after_arg1 (c : Dev nD) :
    after ops (launchContents m c) (Proc.devRef .tc main_arg1) = m ((c.tc : Thread nD τ).loc main_arg1) := by
  after_results_simp <;> rfl
theorem after_arg2 (c : Dev nD) :
    after ops (launchContents m c) (Proc.devRef .tc main_arg2) = m ((c.tc : Thread nD τ).loc main_arg2) := by
  after_results_simp <;> rfl
theorem after_arg3 (c : Dev nD) :
    after ops (launchContents m c) (Proc.devRef .tc main_arg3) = m ((c.tc : Thread nD τ).loc main_arg3) := by
  after_results_simp <;> rfl

set_option maxRecDepth 8192 in
set_option maxHeartbeats 4000000 in
/-- On every device, from any memory with zero counters: every weakly fair execution of the reference terminates
    with its result at the last stage's value of the arguments, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v62)
        = val_main_v62 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v62).trans (after_result m c),
      (h c main_arg0).trans (after_arg0 m c),
      (h c main_arg1).trans (after_arg1 m c),
      (h c main_arg2).trans (after_arg2 m c),
      (h c main_arg3).trans (after_arg3 m c)⟩)
    (run_seq scopedRefs_eq scopedSems_eq defs main (fun _ => ops) main_eq (fun _ => ops_sub) m ρ)

end Cert.ReferenceIdeal.Staged

end
-- ==== Proof.RefResult.lean ====
/-
  The reference, at the ideal values: its result is the log-softmax of the logits, row by row. The product with the
  transposed weights is row i of the propagated features against row j of W; the bias is broadcast over the rows; the
  row maximum is a fold of `max` from −∞ (taking the maximum with −∞ once more changes nothing); the rest is read
  operation by operation.
-/
import proofs.«139447_j47330539602646_1_alg».proof.Proof.RefRead
import proofs.«139447_j47330539602646_1_alg».proof.Proof.RowLogSoftmax
import proofs.«139447_j47330539602646_1_alg».proof.Proof.LibColumn
import Idealize.ShloMosaic.PureOps.Ideal.Laws

noncomputable section

namespace Cert.ReferenceIdeal.Result

open Cert.ReferenceIdeal Cert.ReferenceIdeal.Gen Cert.ReferenceIdeal.ReadP Idealize.ShloMosaic Idealize.ShloMosaic.ValueIdx
open Cert.RowLogSoftmax

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S2x800000, .i32⟩ : BufTy).Contents (Elt Ideal))

/-- The sum `h · Wᵀ + b` at (i, j) is node i's logit for class j. -/
theorem logits_apply (i : Fin 100000) (j : Fin 128) :
    val_main_v61 (F := Ideal) x0 x1 x2 x3 (ix2 i j) = logits (val_main_v56 (F := Ideal) x0 x3) x1 x2 i j := by
  rw [val_main_v61_apply, val_main_v58_apply, val_main_v60_apply, val_main_v59_apply, Ideal.addf_def]
  unfold logits
  have hb : idx_main_v59 (idx_main_v60 (ix2 i j)) = ix1 j := funext fun a => Fin.ext (by match a with | ⟨0, _⟩ => rfl)
  rw [hb]
  refine congrArg (fun s => s + x2 (ix1 j)) (Finset.sum_congr rfl fun k _ => ?_)
  have hl : lidx_main_v58 (ix2 i j) k = ix2 i k := funext fun a => Fin.ext (by match a with | ⟨0, _⟩ => rfl | ⟨1, _⟩ => rfl)
  have hr : idx_main_v57 (ridx_main_v58 (ix2 i j) k) = ix2 j k := funext fun a => Fin.ext (by match a with | ⟨0, _⟩ => rfl | ⟨1, _⟩ => rfl)
  rw [val_main_v57_apply, hl, hr]

/-- A fold of the ideal values' `maximumf` is a fold of `max`. -/
theorem fold_maximumf {ι : Type} (s : Finset ι) (b : EReal) (f : ι → EReal) :
    s.fold (FloatOps.maximumf (F := Ideal) (φ := .f32)) b f = s.fold max b f := rfl

/-- A fold over the lanes a reduction along axis 1 of an `[a, b]` array visits at row `p` is the fold over `k` of the
    entries `(p, k)`. -/
theorem fold_lanes {α : Type} {a b : ℕ} (h : (⟨2, ![a, b]⟩ : Shape).Reduces [1] ⟨1, ![a]⟩) (op : α → α → α)
    [Std.Commutative op] [Std.Associative op] (init : α) (x : (⟨2, ![a, b]⟩ : Shape).Idx → α) (p : Fin a) :
    (Finset.univ : Finset (Fin ((⟨2, ![a, b]⟩ : Shape).size 1))).fold op init (x ∘ h.lift (ix1 p))
      = (Finset.univ : Finset (Fin b)).fold op init fun k => x (ix2 p k) :=
  Finset.fold_congr fun k _ => congrArg x (lift_lanes_ix1 h p k)

/-- The reduce by `maximum` over the classes, then the maximum with −∞: the row's largest logit. -/
theorem rowMax_apply (i : Fin 100000) :
    val_main_call1_v2 (F := Ideal) x0 x1 x2 x3 (ix1 i) = rowMax fun j => val_main_v61 (F := Ideal) x0 x1 x2 x3 (ix2 i j) := by
  rw [val_main_call1_v2_apply, val_main_call1_v1_apply, val_main_call1_cst_0_apply, Ideal.maximumf_def, Ideal.ofBits_def,
    ofBits_neg_inf, max_eq_right bot_le]
  unfold val_main_call1_v0
  generalize val_main_v61 (F := Ideal) x0 x1 x2 x3 = z
  have hR : S100000x128.Reduces [1] S100000 := by decide
  refine (Host.reduce_eq_fold_single (FloatOps.maximumf (F := Ideal) (φ := .f32)) z (val_main_call1_cst (F := Ideal))
    reducesTo_S100000x128_S100000_d1 hR h_S_ (ix1 i)).trans ?_
  rw [val_main_call1_cst_apply, Ideal.ofBits_def, ofBits_neg_inf]
  refine (fold_lanes hR (FloatOps.maximumf (F := Ideal) (φ := .f32)) ⊥ z i).trans ?_
  unfold rowMax
  exact fold_maximumf _ _ _

/-- The shifted logits. -/
theorem shifted_apply (i : Fin 100000) (j : Fin 128) :
    val_main_call1_v5 (F := Ideal) x0 x1 x2 x3 (ix2 i j)
      = val_main_v61 (F := Ideal) x0 x1 x2 x3 (ix2 i j) - rowMax fun j' => val_main_v61 (F := Ideal) x0 x1 x2 x3 (ix2 i j') := by
  rw [val_main_call1_v5_apply, val_main_call1_v4_apply, val_main_call1_v3_apply, Ideal.subf_def]
  have hidx : idx_main_call1_v3 (idx_main_call1_v4 (ix2 i j)) = ix1 i :=
    funext fun a => Fin.ext (by match a with | ⟨0, _⟩ => rfl)
  rw [hidx, rowMax_apply]

/-- The log of the row's sum of exponentials of the shifted logits. -/
theorem logSum_apply (i : Fin 100000) (j : Fin 128) :
    val_main_call1_v10 (F := Ideal) x0 x1 x2 x3 (ix2 i j)
      = Ideal.log (∑ k : Fin 128, Ideal.exp (val_main_call1_v5 (F := Ideal) x0 x1 x2 x3 (ix2 i k))) := by
  rw [val_main_call1_v10_apply, val_main_call1_v9_apply, val_main_call1_v8_apply, val_main_call1_v7_apply,
    val_main_call1_cst_1_apply, Ideal.hostUnary_log_def, Ideal.ofBits_def, Ideal.ofBits_zero_f32, zero_add]
  refine congrArg Ideal.log (Finset.sum_congr rfl fun k _ => ?_)
  have hidx : idx_main_call1_v7 (idx_main_call1_v8 (idx_main_call1_v10 (ix2 i j))) k = ix2 i k :=
    funext fun a => Fin.ext (by match a with | ⟨0, _⟩ => rfl | ⟨1, _⟩ => rfl)
  rw [val_main_call1_v6_apply, Ideal.hostUnary_exp_def, hidx]

/-- The reference's result is the log-softmax of the logits of the propagated features. -/
theorem result_eq :
    val_main_v62 (F := Ideal) x0 x1 x2 x3 = result (val_main_v56 (F := Ideal) x0 x3) x1 x2 := by
  funext y
  obtain ⟨i, j, rfl⟩ : ∃ (i : Fin 100000) (j : Fin 128), y = ix2 i j := ⟨y 0, y 1, eq_ix2 y⟩
  rw [val_main_v62_apply, Ideal.subf_def, logSum_apply, result_ix2]
  unfold logSoftmax
  simp only [shifted_apply, logits_apply]

end Cert.ReferenceIdeal.Result

end
-- ==== Proof.lean ====
/-
  The kernel computes a two-hop graph propagation of the node features on the host (self loops, symmetric degree
  normalisation, gather — scale — scatter-add twice) and then, in one Pallas call over twenty blocks of 5000 nodes,
  the linear layer h · Wᵀ + b and a row-wise log-softmax. The reference is the same propagation followed by the same
  linear layer and jax.nn.log_softmax. At the ideal values both end at one function of the arguments: entry (i, j) is

      z i j − M i − log (∑ₖ exp (z i k − M i)),    z i j = ∑ₖ h i k · W j k + b j,    M i = maxⱼ z i j (folded from −∞),

  with h the propagated features. The propagation is the same line of host operations in both programs and is carried
  as one function of the node features and the edge list, never opened. Roundings to bf16 before the product are the
  identity at the ideal values, the product into a zero accumulator is the plain sum, and the reference's extra maximum
  with −∞ changes nothing; no law beyond these is used, so the precondition is never opened. The idealization rewrote
  no operation, so what it preserves is trivial; the three frames are the generated ones and the reference's staged run.
-/
import proofs.«139447_j47330539602646_1_alg».proof.Defs
import proofs.«139447_j47330539602646_1_alg».proof.Proof.Gen.Kernel
import proofs.«139447_j47330539602646_1_alg».proof.Proof.Gen.Kernel.Skeleton
import proofs.«139447_j47330539602646_1_alg».proof.Proof.Gen.Kernel.Launch
import proofs.«139447_j47330539602646_1_alg».proof.Proof.Gen.Kernel.Points
import proofs.«139447_j47330539602646_1_alg».proof.Proof.Gen.Kernel.Frame
import proofs.«139447_j47330539602646_1_alg».proof.Proof.Gen.KernelIdeal
import proofs.«139447_j47330539602646_1_alg».proof.Proof.Gen.KernelIdeal.Skeleton
import proofs.«139447_j47330539602646_1_alg».proof.Proof.Gen.KernelIdeal.Launch
import proofs.«139447_j47330539602646_1_alg».proof.Proof.Gen.KernelIdeal.Points
import proofs.«139447_j47330539602646_1_alg».proof.Proof.Gen.KernelIdeal.Frame
import proofs.«139447_j47330539602646_1_alg».proof.Proof.Gen.ReferenceIdeal
import proofs.«139447_j47330539602646_1_alg».proof.Proof.Gen.Pre_finite_inputs
import proofs.«139447_j47330539602646_1_alg».proof.Proof.Gen.KernelIdeal.Value
import proofs.«139447_j47330539602646_1_alg».proof.Proof.Bridge
import proofs.«139447_j47330539602646_1_alg».proof.Proof.RefStages
import proofs.«139447_j47330539602646_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- Both programs end at the log-softmax of the logits of the propagated features of arguments that agree. -/
theorem algebraic : Cert.algebraic_KernelIdeal_ReferenceIdeal := by
  intro m ρ m' ρ' _ hagree
  refine ⟨_, Cert.KernelIdeal.Whole.kernel_run m ρ, ?_⟩
  refine (θ_run Cert.ReferenceIdeal.defs _ _).mono (fun _ h c => ⟨(h c).1.trans ?_, (h c).2⟩)
    (Cert.ReferenceIdeal.Staged.run (F := Ideal) m' ρ')
  rw [Cert.ReferenceIdeal.Result.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
